-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S100000 : Shape := ⟨1, ![100000]⟩
abbrev S32x32 : Shape := ⟨2, ![32, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg7 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg7
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x32 .f32) (main_arg1 : IVec S1600000 32) (main_arg2 : IVec S1600000 32) (main_arg3 : IVec S100000 32) (main_arg4 : FVec F S32x32 .f32) (main_arg5 : FVec F S32 .f32) (main_arg6 : FVec F S32x32 .f32) (main_arg7 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg4
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg5
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg6
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg7 main_v13 main_v16
-- ==== Kernel.lean ====
abbrev S100000x32 : Shape := ⟨2, ![100000, 32]⟩
abbrev S1600000 : Shape := ⟨1, ![1600000]⟩
abbrev S100000 : Shape := ⟨1, ![100000]⟩
abbrev S32x32 : Shape := ⟨2, ![32, 32]⟩
abbrev S32 : Shape := ⟨1, ![32]⟩
abbrev S1x32 : Shape := ⟨2, ![1, 32]⟩
abbrev S_ : Shape := ⟨0, ![]⟩
abbrev S1600000x1 : Shape := ⟨2, ![1600000, 1]⟩
abbrev S1600000x32 : Shape := ⟨2, ![1600000, 32]⟩
abbrev S10000x32 : Shape := ⟨2, ![10000, 32]⟩
abbrev S100000x1 : Shape := ⟨2, ![100000, 1]⟩
abbrev S128 : Shape := ⟨1, ![128]⟩
abbrev S1x128 : Shape := ⟨2, ![1, 128]⟩
abbrev S100000x128 : Shape := ⟨2, ![100000, 128]⟩
abbrev S128x32 : Shape := ⟨2, ![128, 32]⟩
abbrev S10000x128 : Shape := ⟨2, ![10000, 128]⟩

abbrev nBuf : Space → Nat
  | .hbm => 49
  | .vmem => 17
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1x32, .f32⟩
  | .hbm, ⟨10, _⟩ => ⟨S100000x32, .bf16⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x32, .bf16⟩
  | .hbm, ⟨20, _⟩ => ⟨S1600000x32, .f32⟩
  | .hbm, ⟨21, _⟩ => ⟨S_, .f32⟩
  | .hbm, ⟨22, _⟩ => ⟨S100000x32, .f32⟩
  | .hbm, ⟨23, _⟩ => ⟨S1600000x1, .i32⟩
  | .hbm, ⟨24, _⟩ => ⟨S100000x32, .f32⟩
  | .hbm, ⟨25, _⟩ => ⟨S100000x32, .f32⟩
  | .hbm, ⟨26, _⟩ => ⟨S100000x32, .bf16⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x32, .bf16⟩
  | .hbm, ⟨36, _⟩ => ⟨S1600000x32, .f32⟩
  | .hbm, ⟨37, _⟩ => ⟨S_, .f32⟩
  | .hbm, ⟨38, _⟩ => ⟨S100000x32, .f32⟩
  | .hbm, ⟨39, _⟩ => ⟨S1600000x1, .i32⟩
  | .hbm, ⟨40, _⟩ => ⟨S100000x32, .f32⟩
  | .hbm, ⟨41, _⟩ => ⟨S100000x1, .i32⟩
  | .hbm, ⟨42, _⟩ => ⟨S128, .i32⟩
  | .hbm, ⟨43, _⟩ => ⟨S1x128, .i32⟩
  | .hbm, ⟨44, _⟩ => ⟨S100000x128, .i32⟩
  | .hbm, ⟨45, _⟩ => ⟨S100000x128, .i32⟩
  | .hbm, ⟨46, _⟩ => ⟨S100000x128, .i1⟩
  | .hbm, ⟨47, _⟩ => ⟨S100000x128, .bf16⟩
  | .hbm, ⟨48, _⟩ => ⟨S128x32, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S32x32, .f32⟩
  | .local _ .vmem, ⟨5, _⟩ => ⟨S1x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x32, .f32⟩
  | .local _ .vmem, ⟨13, _⟩ => ⟨S1x32, .f32⟩
  | .local _ .vmem, ⟨14, _⟩ => ⟨S10000x128, .bf16⟩
  | .local _ .vmem, ⟨15, _⟩ => ⟨S10000x128, .bf16⟩
  | .local _ .vmem, ⟨16, _⟩ => ⟨S128x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  shapeCasts_S32_S1x32 : S32.ShapeCasts S1x32
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  inb_S128x32_S128x32_0_0 : ∀ a, (![0, 0] : Fin 2 → Nat) a + S128x32.size a ≤ S128x32.size a
  h_S128x32 : 0 < S128x32.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S128x32_S128x32 : S128x32.ShapeCasts S128x32
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x32_S10000x32_1_0_0_1_n_n_wf : DotDims.WF S10000x32 S32x32 S10000x32 [1] [0] [0] [1] [] []
  dot_S10000x128_S10000x32_S128x32_0_0_1_1_n_n_wf : DotDims.WF S10000x128 S10000x32 S128x32 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S100000x32.size a
  hwx0_1 : ∀ i : grid0.Coords, EltTy.bits .f32 = 32 ∨ (Rect.block (s := S100000x32) S10000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x32.size a ≤ S100000x32.size a
  hwx0_4 : ∀ i : grid0.Coords, EltTy.bits .f32 = 32 ∨ (Rect.block (s := S100000x32) S10000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .bf16 = 32 ∨ (Rect.block (s := S100000x128) S10000x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x32.size a ≤ S128x32.size a
  hwx1_5 : ∀ i : grid1.Coords, EltTy.bits .f32 = 32 ∨ (Rect.block (s := S128x32) S128x32.size (cc1_transform_5 i) (hinb1_5 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x128_S10000x32_S128x32_0_0_1_1_n_n : DotDims S10000x128 S10000x32 S128x32 where
  lhsContracting := [0]
  rhsContracting := [0]
  lhsNonContracting := [1]
  rhsNonContracting := [1]
  lhsBatch := []
  rhsBatch := []
  wf := dot_S10000x128_S10000x32_S128x32_0_0_1_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S10000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S10000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v34) S128x32.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000 : Shape := ⟨1, ![1600000]⟩
abbrev S100000 : Shape := ⟨1, ![100000]⟩
abbrev S32x32 : Shape := ⟨2, ![32, 32]⟩
abbrev S32 : Shape := ⟨1, ![32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S128x32 : Shape := ⟨2, ![128, 32]⟩
abbrev S100000x1 : Shape := ⟨2, ![100000, 1]⟩

abbrev nBuf : Space → Nat
  | .hbm => 51
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x32, .f32⟩
  | .hbm, ⟨17, _⟩ => ⟨S_, .f32⟩
  | .hbm, ⟨18, _⟩ => ⟨S100000x32, .f32⟩
  | .hbm, ⟨19, _⟩ => ⟨S1600000x1, .i32⟩
  | .hbm, ⟨20, _⟩ => ⟨S100000x32, .f32⟩
  | .hbm, ⟨21, _⟩ => ⟨S100000x32, .f32⟩
  | .hbm, ⟨22, _⟩ => ⟨S100000x32, .f32⟩
  | .hbm, ⟨23, _⟩ => ⟨S1x32, .f32⟩
  | .hbm, ⟨24, _⟩ => ⟨S100000x32, .f32⟩
  | .hbm, ⟨25, _⟩ => ⟨S100000x32, .f32⟩
  | .hbm, ⟨26, _⟩ => ⟨S_, .f32⟩
  | .hbm, ⟨27, _⟩ => ⟨S100000x32, .f32⟩
  | .hbm, ⟨28, _⟩ => ⟨S100000x32, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x32, .f32⟩
  | .hbm, ⟨38, _⟩ => ⟨S_, .f32⟩
  | .hbm, ⟨39, _⟩ => ⟨S100000x32, .f32⟩
  | .hbm, ⟨40, _⟩ => ⟨S1600000x1, .i32⟩
  | .hbm, ⟨41, _⟩ => ⟨S100000x32, .f32⟩
  | .hbm, ⟨42, _⟩ => ⟨S100000x32, .f32⟩
  | .hbm, ⟨43, _⟩ => ⟨S100000x32, .f32⟩
  | .hbm, ⟨44, _⟩ => ⟨S1x32, .f32⟩
  | .hbm, ⟨45, _⟩ => ⟨S100000x32, .f32⟩
  | .hbm, ⟨46, _⟩ => ⟨S100000x32, .f32⟩
  | .hbm, ⟨47, _⟩ => ⟨S_, .f32⟩
  | .hbm, ⟨48, _⟩ => ⟨S128x32, .f32⟩
  | .hbm, ⟨49, _⟩ => ⟨S100000x1, .i32⟩
  | .hbm, ⟨50, _⟩ => ⟨S128x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S128x32 : S_.BroadcastsInDim S128x32 (![] : Fin 0 → Fin S128x32.rank)
  bcast_S100000_S100000x1_0 : S100000.BroadcastsInDim S100000x1 (![0] : Fin 1 → Fin S100000x1.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  scatter_S128x32_S100000x1_S100000x32_1_0_0_1_wf : ScatterDims.WF S128x32 S100000x1 S100000x32 [1] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S128x32_S100000x1_S100000x32_1_0_0_1 : ScatterDims S128x32 S100000x1 S100000x32 where
  updateWindowDims := [1]
  insertedWindowDims := [0]
  scatterDimsToOperandDims := [0]
  indexVectorDim := 1
  wf := scatter_S128x32_S100000x1_S100000x32_1_0_0_1_wf

class Facts : Prop extends Facts₀ where

variable [Facts]
-- ==== Proof.Spec.lean ====
/-
  The mathematics both programs compute, over literal shapes and the extended reals, with no program in sight.

  A graph of 100000 nodes carries 32 features per node. One layer maps a node table `x` and an aggregate table `a`
  (the sum of the neighbours' rows, supplied from outside as a map `A` of node tables) to `(x + a) · W + b`; the first
  layer is followed by a maximum with zero. The result sums the second layer's rows graph by graph: row `n` goes to
  the graph its id names, and a row whose id names no graph `0 … 127` goes nowhere. That sum can be written with a
  0/1 weight per (node, graph) pair or as a sum over the nodes whose id is the graph; the two agree because
  `0 · y = 0` and `1 · y = y` for every extended real `y`, infinite ones included.
-/
import Idealize.ShloMosaic.PureOps.Ideal
import Idealize.ShloMosaic.Lib.ValueIdx

noncomputable section

open scoped BigOperators

namespace GinPool

open Idealize.ShloMosaic Idealize.ShloMosaic.ValueIdx

/-- A node table: 100000 nodes, 32 features. -/
abbrev Node : Shape := ⟨2, ![100000, 32]⟩
/-- A weight matrix, input feature by output feature. -/
abbrev Wt : Shape := ⟨2, ![32, 32]⟩
/-- The graph ids, one per node. -/
abbrev Ids : Shape := ⟨1, ![100000]⟩
/-- The 0/1 weights, node by graph. -/
abbrev Hot : Shape := ⟨2, ![100000, 128]⟩
/-- The pooled result, graph by feature. -/
abbrev Pooled : Shape := ⟨2, ![128, 32]⟩

/-- The value of the zero word of the 32-bit format. Both programs carry this same word, so it is never evaluated
    except where a sum starts from it. -/
abbrev z : EReal := Ideal.ofBits .f32 0x00000000#32

/-- One layer at node `n` and output feature `d`: the row `x n + a n` against column `d` of `W`, plus the bias. -/
def linAt (x a : Node.Idx → EReal) (W : Wt.Idx → EReal) (b : Fin 32 → EReal) (n : Fin 100000) (d : Fin 32) : EReal :=
  (∑ k : Fin 32, (x (ix2 n k) + a (ix2 n k)) * W (ix2 k d)) + b d

/-- One layer as a node table. -/
def lin (x a : Node.Idx → EReal) (W : Wt.Idx → EReal) (b : Fin 32 → EReal) : Node.Idx → EReal :=
  fun i => linAt x a W b (i 0) (i 1)

/-- One layer followed by the maximum with zero. -/
def linRelu (x a : Node.Idx → EReal) (W : Wt.Idx → EReal) (b : Fin 32 → EReal) : Node.Idx → EReal :=
  fun i => max (linAt x a W b (i 0) (i 1)) z

/-- The rows of `y` summed with a weight per (node, graph) pair. -/
def poolBy (w : Hot.Idx → EReal) (y : Node.Idx → EReal) : Pooled.Idx → EReal :=
  fun i => ∑ n : Fin 100000, w (ix2 n (i 0)) * y (ix2 n (i 1))

/-- The rows of `y` summed over the nodes whose id, read as a signed integer, is the graph. -/
def segSum (gid : Ids.Idx → BitVec 32) (y : Node.Idx → EReal) : Pooled.Idx → EReal :=
  fun i => ∑ n : Fin 100000, if (gid (ix1 n)).toInt = ((i 0).val : ℤ) then y (ix2 n (i 1)) else 0

/-- The whole network: two layers over the aggregation `A`, the first followed by the maximum with zero, the second
    summed graph by graph from the zero word. -/
def out (A : (Node.Idx → EReal) → Node.Idx → EReal) (feats : Node.Idx → EReal) (gid : Ids.Idx → BitVec 32)
    (W1 : Wt.Idx → EReal) (b1 : Fin 32 → EReal) (W2 : Wt.Idx → EReal) (b2 : Fin 32 → EReal) : Pooled.Idx → EReal :=
  fun i => z + segSum gid (lin (linRelu feats (A feats) W1 b1) (A (linRelu feats (A feats) W1 b1)) W2 b2) i

/-- A sum over the 100000 nodes is the sum over 10 blocks of 10000 consecutive nodes. -/
theorem sum_blocks {M : Type*} [AddCommMonoid M] (f : Fin 100000 → M) :
    ∑ n, f n = ∑ t : Fin 10, ∑ r : Fin 10000, f ⟨t.val * 10000 + r.val, by omega⟩ := by
  rw [← Equiv.sum_comp (finProdFinEquiv : Fin 10 × Fin 10000 ≃ Fin 100000) f, Fintype.sum_prod_type]
  refine Finset.sum_congr rfl fun t _ => Finset.sum_congr rfl fun r _ => congrArg f (Fin.ext ?_)
  show r.val + 10000 * t.val = t.val * 10000 + r.val
  omega

/-- A 0/1 weight that is one exactly on the nodes whose id is the graph makes the weighted sum the sum over those nodes. -/
theorem poolBy_eq_segSum (w : Hot.Idx → EReal) (gid : Ids.Idx → BitVec 32) (y : Node.Idx → EReal)
    (hw : ∀ (n : Fin 100000) (g : Fin 128), w (ix2 n g) = if (gid (ix1 n)).toInt = (g.val : ℤ) then 1 else 0) :
    poolBy w y = segSum gid y := by
  funext i
  obtain ⟨g, d, rfl⟩ : ∃ (g : Fin 128) (d : Fin 32), i = ix2 g d := ⟨i 0, i 1, eq_ix2 i⟩
  refine Finset.sum_congr rfl fun n _ => ?_
  show w (ix2 n g) * y (ix2 n d) = if (gid (ix1 n)).toInt = (g.val : ℤ) then y (ix2 n d) else 0
  rw [hw n g]
  split
  · exact one_mul _
  · exact zero_mul _

end GinPool

end
-- ==== Proof.Region0.lean ====
/-
  The first layer, region by region: what the first region leaves in its result array.

  The region walks ten points. At point `t` it holds rows `10000 t … 10000 t + 9999` of the node table and of the
  aggregate table, all of the weights and the bias row, and stores, at row `r` and feature `d` of its block, the larger of
  the zero word's value and `(∑ k, (x r k + a r k) · W k d) + b d`. Read over the extended reals the narrowing of the
  operands before the product is the identity and the product accumulated from the zero word is the plain sum, so the
  stored block is block `t` of the first layer's table. The ten blocks tile the 100000 rows (row `n` lies in block
  `n / 10000`), so after the last point the result array is that table.
-/
import proofs.«425825_j64527588655342_3_alg».proof.Proof.Gen.KernelIdeal.Frame
import proofs.«425825_j64527588655342_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.ShloMosaic.ValueIdx Idealize.SL.Sem Cert.KernelIdeal Cert.KernelIdeal.Gen GinPool
open Idealize.ShloMosaic.Pipeline (Dat)
open scoped BigOperators

/-! ## The product of a row block with the weights, entry by entry -/

/-- The left operand of the contraction is read in the result's row … -/
theorem lhs_row (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
/-- … at the summed feature; -/
theorem lhs_feat (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
/-- the right operand at the summed feature … -/
theorem rhs_feat (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
/-- … in the result's column. -/
theorem rhs_col (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- A block of 10000 rows times the weights, accumulated from the zero word: entry `(r, d)` is row `r` against column `d`. -/
theorem rows_mul_at {φ₁ φ₂ : FTy} (a : FVec Ideal S10000x32 φ₁) (w : FVec Ideal S32x32 φ₂) (r : Fin 10000) (d : Fin 32) :
    matmul dot_S10000x32_S32x32_S10000x32_1_0_0_1_n_n none a w (constant (F := Ideal) S10000x32 .f32 0x00000000#32) (ix2 r d)
      = ∑ k : Fin 32, a (ix2 r k) * w (ix2 k d) := by
  show FloatOps.matmul dot_S10000x32_S32x32_S10000x32_1_0_0_1_n_n none a w (constant (F := Ideal) S10000x32 .f32 0x00000000#32) (ix2 r d) = _
  rw [Ideal.matmul_constant_zero_apply, ← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx (ix2 r d) ((ValueIdx.contrEquiv1 dot_S10000x32_S32x32_S10000x32_1_0_0_1_n_n 32 rfl rfl).symm k) = ix2 r k := funext fun ax => Fin.ext (by
    match ax with
    | ⟨0, _⟩ => exact lhs_row _ _
    | ⟨1, _⟩ => exact (lhs_feat _ _).trans hk)
  have er : dot_S10000x32_S32x32_S10000x32_1_0_0_1_n_n.rhsIdx (ix2 r d) ((ValueIdx.contrEquiv1 dot_S10000x32_S32x32_S10000x32_1_0_0_1_n_n 32 rfl rfl).symm k) = ix2 k d := funext fun ax => Fin.ext (by
    match ax with
    | ⟨0, _⟩ => exact (rhs_feat _ _).trans hk
    | ⟨1, _⟩ => exact rhs_col _ _)
  rw [el, er]

/-! ## What the body stores, entry by entry -/

/-- The stored block at `(r, d)`: the two input rows added, against column `d` of the weights, plus the bias row at `d`,
    and then the larger of that and the zero word's value. -/
theorem stored_at (x0 x1 : Vec Ideal S10000x32 .f32) (x2 : Vec Ideal S32x32 .f32) (x3 : Vec Ideal S1x32 .f32) (r : Fin 10000) (d : Fin 32) :
    k0_pay1 x0 x1 x2 x3 (ix2 r d)
      = max ((∑ k : Fin 32, (x0 (ix2 r k) + x1 (ix2 r k)) * x2 (ix2 k d)) + x3 (ix2 (0 : Fin 1) d)) z := by
  unfold k0_pay1
  rw [maximumf_apply, addf_apply, broadcast_apply, rows_mul_at, shapeCast_self, shapeCast_self, broadcastTo_1b_ab_apply]
  simp only [truncf_apply, addf_apply]
  rfl

/-! ## Where a point's blocks sit in their arrays -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The block numbers at point `t`, decided over the ten points: the two node tables and the result move down by one
    block of rows per point and never sideways; the weights and the bias row stay at their one block. -/
theorem blocks_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `10000 t + r` is one of the table's 100000 rows. -/
theorem row_lt (t : Fin cfg0.N) (r : Fin 10000) : t.val * 10000 + r.val < 100000 := by
  have hN : cfg0.N = 10 := N_0
  have := t.isLt
  omega

/-- The first node table's block at point `t`. -/
theorem feats_block (c : Dev nD) (t : Fin cfg0.N) (r : Fin 10000) (k : Fin 32) :
    (iblk0 (F := Ideal) V c 0 t : Vec Ideal S10000x32 .f32) (ix2 r k)
      = (V c main_arg0 : S100000x32.Idx → EReal) (ix2 ⟨t.val * 10000 + r.val, row_lt t r⟩ k) := by
  obtain ⟨e0, e1, -⟩ := blocks_at t
  unfold iblk0
  rw [View.read_apply]
  show V c main_arg0 _ = V c main_arg0 _
  congr 1
  funext a
  apply Fin.ext
  match a with
  | ⟨0, _⟩ => show win0_0.index t (0 : Fin 2) * 10000 + 1 * r.val = t.val * 10000 + r.val; rw [e0]; omega
  | ⟨1, _⟩ => show win0_0.index t (1 : Fin 2) * 32 + 1 * k.val = k.val; rw [e1]; omega

/-- The aggregate table's block at point `t`. -/
theorem agg_block (c : Dev nD) (t : Fin cfg0.N) (r : Fin 10000) (k : Fin 32) :
    (iblk0 (F := Ideal) V c 1 t : Vec Ideal S10000x32 .f32) (ix2 r k)
      = (V c main_v13 : S100000x32.Idx → EReal) (ix2 ⟨t.val * 10000 + r.val, row_lt t r⟩ k) := by
  obtain ⟨-, -, e0, e1, -⟩ := blocks_at t
  unfold iblk0
  rw [View.read_apply]
  show V c main_v13 _ = V c main_v13 _
  congr 1
  funext a
  apply Fin.ext
  match a with
  | ⟨0, _⟩ => show win0_1.index t (0 : Fin 2) * 10000 + 1 * r.val = t.val * 10000 + r.val; rw [e0]; omega
  | ⟨1, _⟩ => show win0_1.index t (1 : Fin 2) * 32 + 1 * k.val = k.val; rw [e1]; omega

/-- The weights' one block is the weights. -/
theorem weights_block (c : Dev nD) (t : Fin cfg0.N) (k d : Fin 32) :
    (iblk0 (F := Ideal) V c 2 t : Vec Ideal S32x32 .f32) (ix2 k d) = (V c main_arg4 : S32x32.Idx → EReal) (ix2 k d) := by
  obtain ⟨-, -, -, -, e0, e1, -⟩ := blocks_at t
  unfold iblk0
  rw [View.read_apply]
  show V c main_arg4 _ = V c main_arg4 _
  congr 1
  funext a
  apply Fin.ext
  match a with
  | ⟨0, _⟩ => show win0_2.index t (0 : Fin 2) * 32 + 1 * k.val = k.val; rw [e0]; omega
  | ⟨1, _⟩ => show win0_2.index t (1 : Fin 2) * 32 + 1 * d.val = d.val; rw [e1]; omega

/-- The bias row's one block is the bias row. -/
theorem bias_block (c : Dev nD) (t : Fin cfg0.N) (d : Fin 32) :
    (iblk0 (F := Ideal) V c 3 t : Vec Ideal S1x32 .f32) (ix2 (0 : Fin 1) d) = (V c main_v0 : S1x32.Idx → EReal) (ix2 (0 : Fin 1) d) := by
  obtain ⟨-, -, -, -, -, -, e0, e1, -⟩ := blocks_at t
  unfold iblk0
  rw [View.read_apply]
  show V c main_v0 _ = V c main_v0 _
  congr 1
  funext a
  apply Fin.ext
  match a with
  | ⟨0, _⟩ => show win0_3.index t (0 : Fin 2) * 1 + 1 * 0 = 0; rw [e0]
  | ⟨1, _⟩ => show win0_3.index t (1 : Fin 2) * 32 + 1 * d.val = d.val; rw [e1]; omega

/-- Entry `(r, d)` of the result's block at point `t` sits at row `10000 t + r`, column `d`. -/
theorem result_place (t : Fin cfg0.N) (r : Fin 10000) (d : Fin 32) :
    (((cfg0.win 4).blk t).view.emb (ix2 r d) : S100000x32.Idx) = ix2 ⟨t.val * 10000 + r.val, row_lt t r⟩ d := by
  obtain ⟨-, -, -, -, -, -, -, -, e0, e1⟩ := blocks_at t
  funext a
  apply Fin.ext
  match a with
  | ⟨0, _⟩ => show win0_4.index t (0 : Fin 2) * 10000 + 1 * r.val = t.val * 10000 + r.val; rw [e0]; omega
  | ⟨1, _⟩ => show win0_4.index t (1 : Fin 2) * 32 + 1 * d.val = d.val; rw [e1]; omega

/-! ## What a point writes back, and the whole table -/

/-- Point `t` writes back block `t` of the first layer's table. -/
theorem flushed_eq (c : Dev nD) (t : Fin cfg0.N) :
    (dat0 (F := Ideal) V c).flushed 4 t
      = ((cfg0.win 4).blk t).view.read (Elt Ideal)
          (linRelu (V c main_arg0) (V c main_v13) (V c main_arg4) (fun d => V c main_v0 (ix2 (0 : Fin 1) d))) := by
  show (cfg0.win 4).cut (grid0.coords t) ((dat0 (F := Ideal) V c).after 4 t) = _
  rw [after0_4]
  unfold out0_4
  rw [View.canon_unit_zero hz]
  simp only [View.ld_unit_zero (S := S10000x32) hz, View.ld_unit_zero (S := S32x32) hz, View.ld_unit_zero (S := S1x32) hz]
  funext j
  obtain ⟨r, d, rfl⟩ : ∃ (r : Fin 10000) (d : Fin 32), j = ix2 r d := ⟨j 0, j 1, eq_ix2 j⟩
  rw [View.read_apply]
  show k0_pay1 (iblk0 V c 0 t) (iblk0 V c 1 t) (iblk0 V c 2 t) (iblk0 V c 3 t) (ix2 r d)
    = linRelu (V c main_arg0) (V c main_v13) (V c main_arg4) (fun d => V c main_v0 (ix2 (0 : Fin 1) d)) (((cfg0.win 4).blk t).view.emb (ix2 r d))
  rw [stored_at, result_place]
  simp only [feats_block, agg_block, weights_block, bias_block]
  rfl

/-- An index of the table is in point `t`'s block iff each coordinate is in the block's range on its axis. -/
theorem mem_block (t : Fin cfg0.N) (i : S100000x32.Idx) :
    i ∈ ((cfg0.win 4).blk t).view.set ↔ ∀ a : Fin 2, win0_4.index t a * S10000x32.size a ≤ (i a).val ∧ (i a).val < win0_4.index t a * S10000x32.size a + S10000x32.size a := by
  show i ∈ ((View.whole main_v14).slice (win0_4.rect t)).set ↔ _
  rw [View.set_slice_whole, Rect.mem_set_unit]
  exact Iff.rfl

/-- Each of the ten blocks of rows is some point's. -/
theorem point_of_block : ∀ q : Fin 10, ∃ t : Fin cfg0.N, t.val = q.val :=
  (by decide +kernel : ∀ q : Fin 10, ∃ t : Fin grid0.N, t.val = q.val)

/-- Row `n` is in the block of the point `n / 10000`. -/
theorem covered (i : S100000x32.Idx) : ∃ t : Fin cfg0.N, (cfg0.win 4).flush t = true ∧ i ∈ ((cfg0.win 4).blk t).view.set := by
  have hi0 : (i 0).val < 100000 := (i 0).isLt
  have hi1 : (i 1).val < 32 := (i 1).isLt
  obtain ⟨t, ht⟩ := point_of_block ⟨(i 0).val / 10000, by omega⟩
  have ht' : t.val = (i 0).val / 10000 := ht
  obtain ⟨-, -, -, -, -, -, -, -, e0, e1⟩ := blocks_at t
  refine ⟨t, flush0_4 t, ?_⟩
  rw [mem_block]
  intro a
  match a with
  | ⟨0, _⟩ => show win0_4.index t (0 : Fin 2) * 10000 ≤ (i 0).val ∧ (i 0).val < win0_4.index t (0 : Fin 2) * 10000 + 10000; rw [e0]; omega
  | ⟨1, _⟩ => show win0_4.index t (1 : Fin 2) * 32 ≤ (i 1).val ∧ (i 1).val < win0_4.index t (1 : Fin 2) * 32 + 32; rw [e1]; omega

/-- After its ten points the region's result array is the first layer's table of the arrays the region found. -/
theorem arr4 (c : Dev nD) :
    (dat0 (F := Ideal) V c).arrAt 4 cfg0.N
      = linRelu (V c main_arg0) (V c main_v13) (V c main_arg4) (fun d => V c main_v0 (ix2 (0 : Fin 1) d)) :=
  (dat0 (F := Ideal) V c).arrAt_eq_of_cover 4 _ (fun t _ => flushed_eq V c t) covered

end Blocks

end Cert.KernelIdeal.Region0

end
-- ==== Proof.Region1.lean ====
/-
  Region 1: what the pooled output holds when the second pallas region has run.

  The region walks the 100000 nodes in 10 blocks of 10000 rows. At the first block it sets its 128 x 32 result to the
  zero word; at every block it adds, to what the result held, the block's 0/1 weights transposed against the block's
  rows of the second layer. The result block is the same at every point, so what the array holds after the run is what
  the last point leaves: the zero word plus the weighted sum over all 100000 nodes.
-/
import proofs.«425825_j64527588655342_3_alg».proof.Proof.Gen.KernelIdeal.Frame
import proofs.«425825_j64527588655342_3_alg».proof.Proof.Spec
import Idealize.ShloMosaic.Lib.Pipeline.Value
import Idealize.ShloMosaic.Lib.Pipeline.FrameBody
import Idealize.ShloMosaic.Lib.ValueIdx
import Idealize.ShloMosaic.PureOps.Ideal.Laws
import Idealize.ShloMosaic.Lib.Tactic

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen GinPool
open Idealize.ShloMosaic.Pipeline (Dat)

/-- The offsets of a whole-block rectangle, however the zeros are spelt. -/
theorem hz : (![0, 0] : Fin 2 → Nat) = fun _ => 0 := funext fun a => by fin_cases a <;> rfl

section Pieces
variable {F : FTy → Type} [FloatOps F]

/-- At a point other than the first the body leaves, in the result's buffer holding `xo`, the one store's payload:
    `xo` plus the block's contribution. -/
theorem out_B (c : Dev nD) (i : grid1.Coords) (a1 : Memref sig .tc .vmem S10000x32 .f32) (h1 : a1.IsWhole)
    (a2 : Memref sig .tc .vmem S10000x32 .f32) (h2 : a2.IsWhole) (a3 : Memref sig .tc .vmem S32x32 .f32) (h3 : a3.IsWhole)
    (a4 : Memref sig .tc .vmem S1x32 .f32) (h4 : a4.IsWhole) (a5 : Memref sig .tc .vmem S10000x128 .bf16) (h5 : a5.IsWhole)
    (a6 : Memref sig .tc .vmem S128x32 .f32) (h6 : a6.IsWhole) (hc : ¬cond1_0 i)
    (x0 x1 : Vec F S10000x32 .f32) (x2 : Vec F S32x32 .f32) (x3 : Vec F S1x32 .f32) (x4 : Vec F S10000x128 .bf16)
    (xo : Vec F S128x32 .f32) :
    out1_B_5 c i a1 h1 a2 h2 a3 h3 a4 h4 a5 h5 a6 h6 hc x0 x1 x2 x3 x4 xo = k1_pay2 x0 x1 x2 x3 x4 xo := by
  unfold out1_B_5
  rw [View.read_writes_eq_canon _ _ _ (cover1_B_5 c i a1 h1 a2 h2 a3 h3 a4 h4 a5 h5 a6 h6 hc x0 x1 x2 x3 x4 xo)]
  unfold kernelRun1_B
  dsimp only
  sl_unfold_words
  rw [View.canon_unit_zero hz]
  simp only [View.readAt_eq_ld, h1.read_unread, h2.read_unread, h3.read_unread, h4.read_unread, h5.read_unread,
    h6.read_unread, View.ld_unit_zero (S := S10000x32) hz, View.ld_unit_zero (S := S32x32) hz,
    View.ld_unit_zero (S := S1x32) hz, View.ld_unit_zero (S := S10000x128) hz, View.ld_unit_zero (S := S128x32) hz]

/-- At the first point the body first stores the zero block, reads it back, and leaves the zero block plus the block's
    contribution. -/
theorem out_A (c : Dev nD) (i : grid1.Coords) (a1 : Memref sig .tc .vmem S10000x32 .f32) (h1 : a1.IsWhole)
    (a2 : Memref sig .tc .vmem S10000x32 .f32) (h2 : a2.IsWhole) (a3 : Memref sig .tc .vmem S32x32 .f32) (h3 : a3.IsWhole)
    (a4 : Memref sig .tc .vmem S1x32 .f32) (h4 : a4.IsWhole) (a5 : Memref sig .tc .vmem S10000x128 .bf16) (h5 : a5.IsWhole)
    (a6 : Memref sig .tc .vmem S128x32 .f32) (h6 : a6.IsWhole) (hc : cond1_0 i)
    (x0 x1 : Vec F S10000x32 .f32) (x2 : Vec F S32x32 .f32) (x3 : Vec F S1x32 .f32) (x4 : Vec F S10000x128 .bf16) :
    out1_A_5 c i a1 h1 a2 h2 a3 h3 a4 h4 a5 h5 a6 h6 hc x0 x1 x2 x3 x4 = k1_pay2 x0 x1 x2 x3 x4 (k1_pay1 (F := F)) := by
  unfold out1_A_5
  rw [View.read_writes_eq_canon _ _ _ (cover1_A_5 c i a1 h1 a2 h2 a3 h3 a4 h4 a5 h5 a6 h6 hc x0 x1 x2 x3 x4)]
  unfold kernelRun1_A
  dsimp only
  sl_unfold_words
  rw [View.canon_cons_unit_zero (S := S128x32) hz, View.readCov_unit_zero (S := S128x32) _ hz]
  simp only [View.readAt_eq_ld, h1.read_unread, h2.read_unread, h3.read_unread, h4.read_unread, h5.read_unread,
    View.ld_unit_zero (S := S10000x32) hz, View.ld_unit_zero (S := S32x32) hz,
    View.ld_unit_zero (S := S1x32) hz, View.ld_unit_zero (S := S10000x128) hz]

end Pieces

/-! ## The arithmetic of one point, entry by entry, over the extended reals -/

/-- The first product contracts the rows' 32 features against the weight's rows: the left index keeps the row, -/
theorem lhsA_0 (i : S10000x32.Idx) (q : dot_S10000x32_S32x32_S10000x32_1_0_0_1_n_n.contr.Idx) :
    (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
/-- and runs over the features; -/
theorem lhsA_1 (i : S10000x32.Idx) (q : dot_S10000x32_S32x32_S10000x32_1_0_0_1_n_n.contr.Idx) :
    (dot_S10000x32_S32x32_S10000x32_1_0_0_1_n_n.lhsIdx i q 1).val = (q ⟨0, by decide⟩).val :=
  dot_S10000x32_S32x32_S10000x32_1_0_0_1_n_n.lhsIdx_val_of_single rfl i q
/-- the right index runs over the weight's rows -/
theorem rhsA_0 (i : S10000x32.Idx) (q : dot_S10000x32_S32x32_S10000x32_1_0_0_1_n_n.contr.Idx) :
    (dot_S10000x32_S32x32_S10000x32_1_0_0_1_n_n.rhsIdx i q 0).val = (q ⟨0, by decide⟩).val :=
  dot_S10000x32_S32x32_S10000x32_1_0_0_1_n_n.rhsIdx_val_of_single rfl i q
/-- and keeps the output feature. -/
theorem rhsA_1 (i : S10000x32.Idx) (q : dot_S10000x32_S32x32_S10000x32_1_0_0_1_n_n.contr.Idx) :
    (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- Into the zero accumulator, the first product at row `r` and feature `d` is the sum over the 32 input features. -/
theorem mmA_apply (L : FVec Ideal S10000x32 .bf16) (R : FVec Ideal S32x32 .bf16) (r : Fin 10000) (d : Fin 32) :
    matmul dot_S10000x32_S32x32_S10000x32_1_0_0_1_n_n none L R (constant S10000x32 .f32 0x00000000#32) (ix2 r d)
      = ∑ k : Fin 32, L (ix2 r k) * R (ix2 k d) := by
  simp only [matmul]
  rw [Ideal.matmul_constant_zero_apply, ← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx (ix2 r d) ((ValueIdx.contrEquiv1 dot_S10000x32_S32x32_S10000x32_1_0_0_1_n_n 32 rfl rfl).symm k) = ix2 r k := funext fun a => Fin.ext (by
    match a with
    | ⟨0, _⟩ => exact lhsA_0 _ _
    | ⟨1, _⟩ => exact (lhsA_1 _ _).trans hk)
  have er : dot_S10000x32_S32x32_S10000x32_1_0_0_1_n_n.rhsIdx (ix2 r d) ((ValueIdx.contrEquiv1 dot_S10000x32_S32x32_S10000x32_1_0_0_1_n_n 32 rfl rfl).symm k) = ix2 k d := funext fun a => Fin.ext (by
    match a with
    | ⟨0, _⟩ => exact (rhsA_0 _ _).trans hk
    | ⟨1, _⟩ => exact rhsA_1 _ _)
  rw [el, er]

/-- The second product contracts the block's 10000 rows on both sides: the left index runs over the rows -/
theorem lhsB_0 (i : S128x32.Idx) (q : dot_S10000x128_S10000x32_S128x32_0_0_1_1_n_n.contr.Idx) :
    (dot_S10000x128_S10000x32_S128x32_0_0_1_1_n_n.lhsIdx i q 0).val = (q ⟨0, by decide⟩).val :=
  dot_S10000x128_S10000x32_S128x32_0_0_1_1_n_n.lhsIdx_val_of_single rfl i q
/-- and keeps the graph; -/
theorem lhsB_1 (i : S128x32.Idx) (q : dot_S10000x128_S10000x32_S128x32_0_0_1_1_n_n.contr.Idx) :
    (dot_S10000x128_S10000x32_S128x32_0_0_1_1_n_n.lhsIdx i q 1).val = (i 0).val := by
  unfold DotDims.lhsIdx
  rw [dif_neg (show ¬(1 : Fin S10000x128.rank) ∈ dot_S10000x128_S10000x32_S128x32_0_0_1_1_n_n.lhsBatch by decide), dif_pos (show (1 : Fin S10000x128.rank) ∈ dot_S10000x128_S10000x32_S128x32_0_0_1_1_n_n.lhsNonContracting by decide)]
  rfl
/-- the right index runs over the rows -/
theorem rhsB_0 (i : S128x32.Idx) (q : dot_S10000x128_S10000x32_S128x32_0_0_1_1_n_n.contr.Idx) :
    (dot_S10000x128_S10000x32_S128x32_0_0_1_1_n_n.rhsIdx i q 0).val = (q ⟨0, by decide⟩).val :=
  dot_S10000x128_S10000x32_S128x32_0_0_1_1_n_n.rhsIdx_val_of_single rfl i q
/-- and keeps the feature. -/
theorem rhsB_1 (i : S128x32.Idx) (q : dot_S10000x128_S10000x32_S128x32_0_0_1_1_n_n.contr.Idx) :
    (dot_S10000x128_S10000x32_S128x32_0_0_1_1_n_n.rhsIdx i q 1).val = (i 1).val := by
  unfold DotDims.rhsIdx
  rw [dif_neg (show ¬(1 : Fin S10000x32.rank) ∈ dot_S10000x128_S10000x32_S128x32_0_0_1_1_n_n.rhsBatch by decide), dif_pos (show (1 : Fin S10000x32.rank) ∈ dot_S10000x128_S10000x32_S128x32_0_0_1_1_n_n.rhsNonContracting by decide)]
  rfl

/-- Into the zero accumulator, the second product at graph `g` and feature `d` is the sum over the block's rows of the
    row's weight for `g` times the row's feature `d`. -/
theorem mmB_apply (L : FVec Ideal S10000x128 .bf16) (R : FVec Ideal S10000x32 .bf16) (g : Fin 128) (d : Fin 32) :
    matmul dot_S10000x128_S10000x32_S128x32_0_0_1_1_n_n none L R (constant S128x32 .f32 0x00000000#32) (ix2 g d)
      = ∑ r : Fin 10000, L (ix2 r g) * R (ix2 r d) := by
  simp only [matmul]
  rw [Ideal.matmul_constant_zero_apply, ← Equiv.sum_comp (ValueIdx.contrEquiv1 dot_S10000x128_S10000x32_S128x32_0_0_1_1_n_n 10000 rfl rfl).symm]
  refine Finset.sum_congr rfl fun k _ => ?_
  have hk := ValueIdx.contrEquiv1_symm_val dot_S10000x128_S10000x32_S128x32_0_0_1_1_n_n 10000 rfl rfl k
  have el : dot_S10000x128_S10000x32_S128x32_0_0_1_1_n_n.lhsIdx (ix2 g d) ((ValueIdx.contrEquiv1 dot_S10000x128_S10000x32_S128x32_0_0_1_1_n_n 10000 rfl rfl).symm k) = ix2 k g := funext fun a => Fin.ext (by
    match a with
    | ⟨0, _⟩ => exact (lhsB_0 _ _).trans hk
    | ⟨1, _⟩ => exact lhsB_1 _ _)
  have er : dot_S10000x128_S10000x32_S128x32_0_0_1_1_n_n.rhsIdx (ix2 g d) ((ValueIdx.contrEquiv1 dot_S10000x128_S10000x32_S128x32_0_0_1_1_n_n 10000 rfl rfl).symm k) = ix2 k d := funext fun a => Fin.ext (by
    match a with
    | ⟨0, _⟩ => exact (rhsB_0 _ _).trans hk
    | ⟨1, _⟩ => exact rhsB_1 _ _)
  rw [el, er]

/-- The bias row, stretched over the block's rows, reads its own entry of the feature at every row. -/
theorem bias_apply (b : Vec Ideal S1x32 .f32) (r : Fin 10000) (d : Fin 32) :
    broadcastTo S10000x32 b broadcasts_S1x32_S10000x32 (ix2 r d) = b (ix2 (0 : Fin 1) d) :=
  broadcastTo_apply b broadcasts_S1x32_S10000x32 (ix2 r d) (ix2 (0 : Fin 1) d) (fun a => by
    match a with
    | ⟨0, _⟩ => rfl
    | ⟨1, _⟩ => show d.val = if (32 : Nat) = 1 then 0 else d.val; rw [if_neg (by decide)])

/-- One point's update at graph `g` and feature `d`: what the result held, plus the sum over the block's rows of the
    row's weight for `g` times the row's second-layer value at `d`. -/
theorem pay2_apply (x0 x1 : Vec Ideal S10000x32 .f32) (x2 : Vec Ideal S32x32 .f32) (x3 : Vec Ideal S1x32 .f32)
    (x4 : Vec Ideal S10000x128 .bf16) (xo : Vec Ideal S128x32 .f32) (g : Fin 128) (d : Fin 32) :
    k1_pay2 x0 x1 x2 x3 x4 xo (ix2 g d)
      = xo (ix2 g d) + ∑ r : Fin 10000, x4 (ix2 r g)
          * ((∑ k : Fin 32, (x0 (ix2 r k) + x1 (ix2 r k)) * x2 (ix2 k d)) + x3 (ix2 (0 : Fin 1) d)) := by
  unfold k1_pay2
  simp only [shapeCast_self]
  rw [addf_apply, mmB_apply]
  refine congrArg (xo (ix2 g d) + ·) (Finset.sum_congr rfl fun r _ => ?_)
  rw [truncf_apply, addf_apply, mmA_apply, bias_apply]
  simp only [truncf_apply, addf_apply]

/-! ## The blocks the points read, in the arrays as the region finds them -/

section Run
variable (V : (c : Dev nD) → (b : Ref sig .tc) → Buf (Elt Ideal) ((c : Thread nD τ).loc b))

/-- The five input arrays at their literal shapes: the first layer's rows, the aggregate, the second weight, the bias
    row, the 0/1 weights. -/
abbrev rowsArr (c : Dev nD) : Vec Ideal S100000x32 .f32 := V c main_v14
abbrev aggArr (c : Dev nD) : Vec Ideal S100000x32 .f32 := V c main_v26
abbrev wtArr (c : Dev nD) : Vec Ideal S32x32 .f32 := V c main_arg6
abbrev biasArr (c : Dev nD) : Vec Ideal S1x32 .f32 := V c main_v1
abbrev hotArr (c : Dev nD) : Vec Ideal S100000x128 .bf16 := V c main_v33

/-- Their blocks at point `t`, at the blocks' literal shapes. -/
abbrev rowsBlk (c : Dev nD) (t : Fin cfg1.N) : Vec Ideal S10000x32 .f32 := iblk1 V c 0 t
abbrev aggBlk (c : Dev nD) (t : Fin cfg1.N) : Vec Ideal S10000x32 .f32 := iblk1 V c 1 t
abbrev wtBlk (c : Dev nD) (t : Fin cfg1.N) : Vec Ideal S32x32 .f32 := iblk1 V c 2 t
abbrev biasBlk (c : Dev nD) (t : Fin cfg1.N) : Vec Ideal S1x32 .f32 := iblk1 V c 3 t
abbrev hotBlk (c : Dev nD) (t : Fin cfg1.N) : Vec Ideal S10000x128 .bf16 := iblk1 V c 4 t

/-- Row `r` of block `t` is node `10000 t + r`. -/
def node (t : Fin cfg1.N) (r : Fin 10000) : Fin 100000 :=
  ⟨t.val * 10000 + r.val, by have := t.isLt; have hN : cfg1.N = 10 := N_1; have := r.isLt; omega⟩

/-- The block index of each window at point `t`: the three row-blocked windows sit at block row `t`, column block 0;
    the weight, the bias row and the result never move. -/
theorem idx_facts : ∀ t : Fin cfg1.N,
    (win1_0.index t 0 = t.val ∧ win1_0.index t 1 = 0) ∧ (win1_1.index t 0 = t.val ∧ win1_1.index t 1 = 0)
      ∧ (win1_2.index t 0 = 0 ∧ win1_2.index t 1 = 0) ∧ (win1_3.index t 0 = 0 ∧ win1_3.index t 1 = 0)
      ∧ (win1_4.index t 0 = t.val ∧ win1_4.index t 1 = 0) ∧ (win1_5.index t 0 = 0 ∧ win1_5.index t 1 = 0) :=
  (by decide +kernel : ∀ t : Fin grid1.N, _)

/-- Each block's entry is the array's entry at the node the block's row names (for the weight and the bias row, whose one
    block is the whole array, at the same place): a block's coordinate is its index times its size plus the coordinate
    inside the block. -/
theorem rowsBlk_apply (c : Dev nD) (t : Fin cfg1.N) (r : Fin 10000) (k : Fin 32) :
    rowsBlk V c t (ix2 r k) = rowsArr V c (ix2 (node t r) k) := by
  show ((cfg1.win 0).blk t).view.read (Elt Ideal) (V c (Pipeline.arrRef spec1 0)) (ix2 r k) = _
  rw [View.read_apply]
  show V c main_v14 _ = V c main_v14 _
  refine congrArg (V c main_v14) (funext fun a => Fin.ext ?_)
  match a with
  | ⟨0, _⟩ => show win1_0.index t 0 * 10000 + 1 * r.val = t.val * 10000 + r.val; rw [(idx_facts t).1.1]; omega
  | ⟨1, _⟩ => show win1_0.index t 1 * 32 + 1 * k.val = k.val; rw [(idx_facts t).1.2]; omega

theorem aggBlk_apply (c : Dev nD) (t : Fin cfg1.N) (r : Fin 10000) (k : Fin 32) :
    aggBlk V c t (ix2 r k) = aggArr V c (ix2 (node t r) k) := by
  show ((cfg1.win 1).blk t).view.read (Elt Ideal) (V c (Pipeline.arrRef spec1 1)) (ix2 r k) = _
  rw [View.read_apply]
  show V c main_v26 _ = V c main_v26 _
  refine congrArg (V c main_v26) (funext fun a => Fin.ext ?_)
  match a with
  | ⟨0, _⟩ => show win1_1.index t 0 * 10000 + 1 * r.val = t.val * 10000 + r.val; rw [(idx_facts t).2.1.1]; omega
  | ⟨1, _⟩ => show win1_1.index t 1 * 32 + 1 * k.val = k.val; rw [(idx_facts t).2.1.2]; omega

theorem wtBlk_apply (c : Dev nD) (t : Fin cfg1.N) (k d : Fin 32) :
    wtBlk V c t (ix2 k d) = wtArr V c (ix2 k d) := by
  show ((cfg1.win 2).blk t).view.read (Elt Ideal) (V c (Pipeline.arrRef spec1 2)) (ix2 k d) = _
  rw [View.read_apply]
  show V c main_arg6 _ = V c main_arg6 _
  refine congrArg (V c main_arg6) (funext fun a => Fin.ext ?_)
  match a with
  | ⟨0, _⟩ => show win1_2.index t 0 * 32 + 1 * k.val = k.val; rw [(idx_facts t).2.2.1.1]; omega
  | ⟨1, _⟩ => show win1_2.index t 1 * 32 + 1 * d.val = d.val; rw [(idx_facts t).2.2.1.2]; omega

theorem biasBlk_apply (c : Dev nD) (t : Fin cfg1.N) (d : Fin 32) :
    biasBlk V c t (ix2 (0 : Fin 1) d) = biasArr V c (ix2 (0 : Fin 1) d) := by
  show ((cfg1.win 3).blk t).view.read (Elt Ideal) (V c (Pipeline.arrRef spec1 3)) (ix2 (0 : Fin 1) d) = _
  rw [View.read_apply]
  show V c main_v1 _ = V c main_v1 _
  refine congrArg (V c main_v1) (funext fun a => Fin.ext ?_)
  match a with
  | ⟨0, _⟩ => show win1_3.index t 0 * 1 + 1 * 0 = 0; rw [(idx_facts t).2.2.2.1.1]
  | ⟨1, _⟩ => show win1_3.index t 1 * 32 + 1 * d.val = d.val; rw [(idx_facts t).2.2.2.1.2]; omega

theorem hotBlk_apply (c : Dev nD) (t : Fin cfg1.N) (r : Fin 10000) (g : Fin 128) :
    hotBlk V c t (ix2 r g) = hotArr V c (ix2 (node t r) g) := by
  show ((cfg1.win 4).blk t).view.read (Elt Ideal) (V c (Pipeline.arrRef spec1 4)) (ix2 r g) = _
  rw [View.read_apply]
  show V c main_v33 _ = V c main_v33 _
  refine congrArg (V c main_v33) (funext fun a => Fin.ext ?_)
  match a with
  | ⟨0, _⟩ => show win1_4.index t 0 * 10000 + 1 * r.val = t.val * 10000 + r.val; rw [(idx_facts t).2.2.2.2.1.1]; omega
  | ⟨1, _⟩ => show win1_4.index t 1 * 128 + 1 * g.val = g.val; rw [(idx_facts t).2.2.2.2.1.2]; omega

/-- The second layer's table over the arrays the region finds, and the 0/1 weights. -/
abbrev layer2 (c : Dev nD) : Node.Idx → EReal :=
  lin (V c main_v14) (V c main_v26) (V c main_arg6) (fun d => V c main_v1 (ix2 (0 : Fin 1) d))
abbrev hot (c : Dev nD) : Hot.Idx → EReal := V c main_v33

/-- What point `t` adds at graph `g` and feature `d`: the sum over its 10000 nodes of the node's weight for `g` times
    the node's second-layer value at `d`. -/
def contrib (c : Dev nD) (t : Fin cfg1.N) (g : Fin 128) (d : Fin 32) : EReal :=
  ∑ r : Fin 10000, hot V c (ix2 (node t r) g) * layer2 V c (ix2 (node t r) d)

/-- One point's update over the blocks the point reads: what the result held plus the point's contribution. -/
theorem step (c : Dev nD) (t : Fin cfg1.N) (xo : Vec Ideal S128x32 .f32) (g : Fin 128) (d : Fin 32) :
    k1_pay2 (rowsBlk V c t) (aggBlk V c t) (wtBlk V c t) (biasBlk V c t) (hotBlk V c t) xo (ix2 g d)
      = xo (ix2 g d) + contrib V c t g d := by
  refine (pay2_apply (rowsBlk V c t) (aggBlk V c t) (wtBlk V c t) (biasBlk V c t) (hotBlk V c t) xo g d).trans ?_
  refine congrArg (xo (ix2 g d) + ·) (Finset.sum_congr rfl fun r _ => ?_)
  simp only [rowsBlk_apply, aggBlk_apply, wtBlk_apply, biasBlk_apply, hotBlk_apply]
  rfl

/-- After point `n` the result's buffer holds, at graph `g` and feature `d`, the zero word plus the contributions of
    the points `0 … n`: the first point starts from the zero block, every later one from what the point before left. -/
theorem outsAt_eq (c : Dev nD) : ∀ (n : ℕ) (hn : n < cfg1.N) (g : Fin 128) (d : Fin 32),
    outsAt1 V c n hn (ix2 g d)
      = z + ∑ s : Fin (n + 1), contrib V c ⟨s.val, Nat.lt_of_lt_of_le s.isLt (Nat.succ_le_of_lt hn)⟩ g d
  | 0, hn, g, d => by
    refine (congrFun ((outsAt1_A V c (⟨0, hn⟩ : Fin cfg1.N) (Nat.zero_mod _)).trans
      (out_A (F := Ideal) c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) (ms1_3 (⟨0, hn⟩ : Fin cfg1.N)) (hs1_3 (⟨0, hn⟩ : Fin cfg1.N)) (ms1_4 (⟨0, hn⟩ : Fin cfg1.N)) (hs1_4 (⟨0, hn⟩ : Fin cfg1.N)) (ms1_5 (⟨0, hn⟩ : Fin cfg1.N)) (hs1_5 (⟨0, hn⟩ : Fin cfg1.N)) ((hcond1_0 (⟨0, hn⟩ : Fin cfg1.N)).mpr (Nat.zero_mod _)) (rowsBlk V c (⟨0, hn⟩ : Fin cfg1.N)) (aggBlk V c (⟨0, hn⟩ : Fin cfg1.N)) (wtBlk V c (⟨0, hn⟩ : Fin cfg1.N)) (biasBlk V c (⟨0, hn⟩ : Fin cfg1.N)) (hotBlk V c (⟨0, hn⟩ : Fin cfg1.N)))) (ix2 g d)).trans ?_
    refine (step V c (⟨0, hn⟩ : Fin cfg1.N) (k1_pay1 (F := Ideal)) g d).trans ?_
    rw [Fin.sum_univ_one]
    rfl
  | n + 1, hn, g, d => by
    have hN : cfg1.N = 10 := N_1
    have hB : ¬(⟨n + 1, hn⟩ : Fin cfg1.N).val % 10 = 0 := by dsimp only; omega
    refine (congrFun ((outsAt1_B V c (⟨n + 1, hn⟩ : Fin cfg1.N) hB).trans
      (out_B (F := Ideal) c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) (ms1_4 (⟨n + 1, hn⟩ : Fin cfg1.N)) (hs1_4 (⟨n + 1, hn⟩ : Fin cfg1.N)) (ms1_5 (⟨n + 1, hn⟩ : Fin cfg1.N)) (hs1_5 (⟨n + 1, hn⟩ : Fin cfg1.N)) (fun h => hB ((hcond1_0 (⟨n + 1, hn⟩ : Fin cfg1.N)).mp h)) (rowsBlk V c (⟨n + 1, hn⟩ : Fin cfg1.N)) (aggBlk V c (⟨n + 1, hn⟩ : Fin cfg1.N)) (wtBlk V c (⟨n + 1, hn⟩ : Fin cfg1.N)) (biasBlk V c (⟨n + 1, hn⟩ : Fin cfg1.N)) (hotBlk V c (⟨n + 1, hn⟩ : Fin cfg1.N))
        (outsAt1 V c n (Nat.lt_of_succ_lt hn)))) (ix2 g d)).trans ?_
    refine (step V c (⟨n + 1, hn⟩ : Fin cfg1.N) (outsAt1 V c n (Nat.lt_of_succ_lt hn)) g d).trans ?_
    rw [outsAt_eq c n (Nat.lt_of_succ_lt hn) g d, add_assoc]
    exact congrArg (z + ·) (Fin.sum_univ_castSucc (fun s : Fin (n + 1 + 1) =>
      contrib V c ⟨s.val, Nat.lt_of_lt_of_le s.isLt (Nat.succ_le_of_lt hn)⟩ g d)).symm

/-- The last point is point 9. -/
theorem nine_lt : 9 < cfg1.N := by rw [show cfg1.N = 10 from N_1]; decide

/-- The pooled result: the zero word plus the weighted sum over all 100000 nodes. -/
abbrev result (c : Dev nD) : Pooled.Idx → EReal := fun i => z + poolBy (hot V c) (layer2 V c) i

/-- After the last point the buffer holds the pooled result: the ten points' node ranges are the ten blocks of 10000
    consecutive nodes. -/
theorem outsAt_last (c : Dev nD) : outsAt1 V c 9 nine_lt = result V c := by
  funext i
  obtain ⟨g, d, rfl⟩ : ∃ (g : Fin 128) (d : Fin 32), i = ix2 g d := ⟨i 0, i 1, eq_ix2 i⟩
  refine (outsAt_eq V c 9 nine_lt g d).trans ?_
  show z + _ = z + poolBy (hot V c) (layer2 V c) (ix2 g d)
  unfold poolBy
  rw [sum_blocks]
  rfl

/-- The one write-back, at the last point, writes the pooled result: the result's one block, read through zero offsets,
    is the whole array. -/
theorem flushed_eq (c : Dev nD) (t : Fin cfg1.N) (hf : (cfg1.win 5).flush t = true) :
    (dat1 (F := Ideal) V c).flushed 5 t = ((cfg1.win 5).blk t).view.read (Elt Ideal) (result V c) := by
  have hN : cfg1.N = 10 := N_1
  have h9 : t.val = 9 := by have := (flush1_5 t).mp hf; have := t.isLt; omega
  obtain rfl : t = t1_9 := Fin.ext h9
  show (cfg1.win 5).cut (grid1.coords t1_9) ((dat1 (F := Ideal) V c).after 5 t1_9) = _
  rw [after1_5]
  show (cfg1.win 5).cut (grid1.coords t1_9) (outsAt1 V c 9 nine_lt) = _
  rw [outsAt_last]
  have hz' : (fun a => win1_5.index t1_9 a * main_v34.ty.shape.size a) = fun _ => 0 := funext fun a => by fin_cases a <;> decide
  exact (Memref.read_access_unit_zero (Elt Ideal) main_v34 hz' (fun a => by rw [congrFun hz' a]; simp) (result V c)).symm

/-- The result array after the run. -/
theorem arr5 (c : Dev nD) :
    (dat1 (F := Ideal) V c).arrAt 5 cfg1.N
      = fun i => z + poolBy (V c main_v33) (lin (V c main_v14) (V c main_v26) (V c main_arg6) (fun d => V c main_v1 (ix2 (0 : Fin 1) d))) i :=
  (dat1 (F := Ideal) V c).arrAt_eq_of_cover 5 (result V c) (flushed_eq V c) fun i =>
    ⟨t1_9, (flush1_5 t1_9).mpr rfl, by
      show i ∈ ((View.whole main_v34).slice (win1_5.rect t1_9)).set
      rw [View.set_slice_whole, Rect.mem_set_unit]
      intro a
      have h0 : (i 0 : Nat) < 128 := (i 0).isLt
      have h1 : (i 1 : Nat) < 32 := (i 1).isLt
      match a with
      | ⟨0, _⟩ => show win1_5.index t1_9 0 * win1_5.size 0 ≤ (i 0 : Nat) ∧ (i 0 : Nat) < win1_5.index t1_9 0 * win1_5.size 0 + win1_5.xsize (grid1.coords t1_9) 0
                  rw [show win1_5.index t1_9 0 * win1_5.size 0 = 0 from by decide +kernel, show win1_5.xsize (grid1.coords t1_9) 0 = 128 from by decide +kernel]; omega
      | ⟨1, _⟩ => show win1_5.index t1_9 1 * win1_5.size 1 ≤ (i 1 : Nat) ∧ (i 1 : Nat) < win1_5.index t1_9 1 * win1_5.size 1 + win1_5.xsize (grid1.coords t1_9) 1
                  rw [show win1_5.index t1_9 1 * win1_5.size 1 = 0 from by decide +kernel, show win1_5.xsize (grid1.coords t1_9) 1 = 32 from by decide +kernel]; omega⟩

end Run

end Cert.KernelIdeal.Region1

end
-- ==== Proof.HostStages.lean ====
/-
  What the host operations leave in the arrays the two regions read.

  Before the first region the host computes the neighbour aggregate of the input features — the rows the source ids
  name (a negative id wrapped once by the node count, then clamped by the gather) are gathered and added into the rows
  the destination ids name — and views each bias as a row. Between the regions it aggregates the first layer's output
  the same way and builds the 0/1 weights: entry `(n, g)` is one exactly when node `n`'s id is the word `g`.
  The gathers run on the table narrowed to 16 bits and widened again; over the extended reals both changes of format
  are the identity, so they stay inside the aggregation map and are removed where that map meets the reference's.
-/
import proofs.«425825_j64527588655342_3_alg».proof.Proof.Gen.KernelIdeal.Frame
import proofs.«425825_j64527588655342_3_alg».proof.Proof.Spec
import Idealize.ShloMosaic.Lib.StableHlo.Run

set_option maxRecDepth 16384

noncomputable section

namespace Cert.KernelIdeal.HostStages

open Idealize.ShloMosaic Idealize.ShloMosaic.TcCoe Idealize.ShloMosaic.ValueIdx Idealize.SL.Sem Idealize.ShloMosaic.StableHlo
open Cert.KernelIdeal Cert.KernelIdeal.Gen GinPool

/-- The neighbour aggregation as the kernel's host code computes it, as a map of node tables. -/
def aggK (src dst : (⟨S1600000, .i32⟩ : BufTy).Contents (Elt Ideal)) : (Node.Idx → EReal) → Node.Idx → EReal := fun x =>
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dst)
    (extf (F := Ideal) .f32
      (Host.gather gather_S100000x32_S1600000x1_S1600000x32_1_0_n_n_0_1_132 (truncf (F := Ideal) .bf16 x bitsLt_bf16_f32)
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      bitsLt_bf16_f32)

/-- The 0/1 weights from the graph ids: the id broadcast along the graphs compared with the graph numbers broadcast
    along the nodes, the one-bit answer read as a number. -/
def hot (gid : (⟨S100000, .i32⟩ : BufTy).Contents (Elt Ideal)) : Hot.Idx → EReal :=
  uitofp (F := Ideal) .bf16
    (cmpi .eq (broadcastInDim S100000x128 ![0, 1] bcast_S100000x1_S100000x128_0_1 (broadcastInDim S100000x1 ![0] bcast_S100000_S100000x1_0 gid))
      (broadcastInDim S100000x128 ![0, 1] bcast_S1x128_S100000x128_0_1 (broadcastInDim S1x128 ![1] bcast_S128_S1x128_1 (iotaInDim S128 32 0))))

variable (m : (ℓ : Loc nD τ sig) → Buf (Elt Ideal) ℓ) (ρ : Dev nD → PrngReg)

/-! ## At the first region's entry -/

theorem V1_arg0 (c : Dev nD) : V1 m ρ c main_arg0 = m ((c : Thread nD τ).loc main_arg0) := by
  show StableHlo.after hostOps0 (W0 m ρ c) (Proc.devRef .tc main_arg0) = _
  dsimp only [hostOps0]; after_results

theorem V1_arg4 (c : Dev nD) : V1 m ρ c main_arg4 = m ((c : Thread nD τ).loc main_arg4) := by
  show StableHlo.after hostOps0 (W0 m ρ c) (Proc.devRef .tc main_arg4) = _
  dsimp only [hostOps0]; after_results

theorem V1_v0 (c : Dev nD) :
    V1 m ρ c main_v0 = shapeCast S1x32 (m ((c : Thread nD τ).loc main_arg5)) shapeCasts_S32_S1x32 := by
  show StableHlo.after hostOps0 (W0 m ρ c) (Proc.devRef .tc main_v0) = _
  dsimp only [hostOps0]; after_results; rfl

theorem V1_v13 (c : Dev nD) :
    V1 m ρ c main_v13 = aggK (m ((c : Thread nD τ).loc main_arg1)) (m ((c : Thread nD τ).loc main_arg2)) (m ((c : Thread nD τ).loc main_arg0)) := by
  show StableHlo.after hostOps0 (W0 m ρ c) (Proc.devRef .tc main_v13) = _
  dsimp only [hostOps0]; after_results; rfl

/-! ## At the first region's exit: the arguments and the second bias row are as the first stretch left them, the
    first layer's output is what the region's write-backs leave -/

theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  dsimp only [hostOps0]; after_results

theorem W2_arg2 (c : Dev nD) : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  dsimp only [hostOps0]; after_results

theorem W2_arg3 (c : Dev nD) : W2 m ρ c (Proc.devRef .tc main_arg3) = m ((c : Thread nD τ).loc main_arg3) := by
  refine (W2_of_ne m ρ c main_arg3 (by decide)).trans ?_
  show StableHlo.after hostOps0 (W0 m ρ c) (Proc.devRef .tc main_arg3) = _
  dsimp only [hostOps0]; after_results

theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  dsimp only [hostOps0]; after_results

theorem W2_v1 (c : Dev nD) :
    W2 m ρ c (Proc.devRef .tc main_v1) = shapeCast S1x32 (m ((c : Thread nD τ).loc main_arg7)) shapeCasts_S32_S1x32 := by
  refine (W2_of_ne m ρ c main_v1 (by decide)).trans ?_
  show StableHlo.after hostOps0 (W0 m ρ c) (Proc.devRef .tc main_v1) = _
  dsimp only [hostOps0]; after_results; rfl

/-- The first layer's output array after the first region. -/
theorem W2_v14 (c : Dev nD) : W2 m ρ c (Proc.devRef .tc main_v14) = (dat0 (V1 m ρ) c).arrAt 4 cfg0.N :=
  W2_arr m ρ c 4

/-! ## At the second region's entry -/

theorem V3_v14 (c : Dev nD) : V3 m ρ c main_v14 = W2 m ρ c (Proc.devRef .tc main_v14) := by
  show StableHlo.after hostOps1 (W2 m ρ c) (Proc.devRef .tc main_v14) = _
  dsimp only [hostOps1]; after_results

theorem V3_arg6 (c : Dev nD) : V3 m ρ c main_arg6 = m ((c : Thread nD τ).loc main_arg6) := by
  show StableHlo.after hostOps1 (W2 m ρ c) (Proc.devRef .tc main_arg6) = _
  dsimp only [hostOps1]; after_results; exact W2_arg6 m ρ c

theorem V3_v1 (c : Dev nD) :
    V3 m ρ c main_v1 = shapeCast S1x32 (m ((c : Thread nD τ).loc main_arg7)) shapeCasts_S32_S1x32 := by
  show StableHlo.after hostOps1 (W2 m ρ c) (Proc.devRef .tc main_v1) = _
  dsimp only [hostOps1]; after_results; exact W2_v1 m ρ c

theorem V3_v26 (c : Dev nD) :
    V3 m ρ c main_v26 = aggK (m ((c : Thread nD τ).loc main_arg1)) (m ((c : Thread nD τ).loc main_arg2)) (W2 m ρ c (Proc.devRef .tc main_v14)) := by
  show StableHlo.after hostOps1 (W2 m ρ c) (Proc.devRef .tc main_v26) = _
  dsimp only [hostOps1]; after_results
  rw [W2_arg1, W2_arg2]; rfl

theorem V3_v33 (c : Dev nD) : V3 m ρ c main_v33 = hot (m ((c : Thread nD τ).loc main_arg3)) := by
  show StableHlo.after hostOps1 (W2 m ρ c) (Proc.devRef .tc main_v33) = _
  dsimp only [hostOps1]; after_results
  rw [W2_arg3]; rfl

end Cert.KernelIdeal.HostStages

end
-- ==== Proof.Bridge.lean ====
/-
  The kernel's result as the network of the specification.

  The second region leaves, at graph `g` and feature `d`, the zero word plus the sum over the nodes of the 0/1 weight
  at `(n, g)` times the second layer's row `n` at `d`. The weight is the one-bit answer to "is node `n`'s id the word
  `g`", read as a number; for `g` below 128 a 32-bit word equals the word `g` exactly when its signed reading is `g`,
  so the weighted sum is the sum over the nodes whose id reads `g`. The second layer's inputs are the first region's
  array and its aggregate; the first region's array is the first layer followed by the maximum with zero; each bias
  row is the bias vector under a leading unit axis.
-/
import proofs.«425825_j64527588655342_3_alg».proof.Proof.HostStages
import proofs.«425825_j64527588655342_3_alg».proof.Proof.Spec
import Idealize.ShloMosaic.Lib.StableHlo.Predicate
import Idealize.ShloMosaic.Lib.ValueLayout

set_option maxRecDepth 16384

noncomputable section

namespace Cert.KernelIdeal.Bridge

open Idealize.ShloMosaic Idealize.ShloMosaic.TcCoe Idealize.ShloMosaic.ValueIdx Idealize.SL.Sem
open Idealize.ShloMosaic.StableHlo.Predicate
open Cert.KernelIdeal Cert.KernelIdeal.Gen Cert.KernelIdeal.HostStages GinPool

/-- Two spellings of the rank-2 index `(p, q)`. -/
theorem ix2_eq_ij {n m : ℕ} (p : Fin n) (q : Fin m) : ix2 p q = ij p q :=
  funext fun b => match b with | ⟨0, _⟩ => rfl | ⟨1, _⟩ => rfl

/-- Two spellings of the rank-1 index `p`. -/
theorem ofFin_eq_ix1 {n : ℕ} (p : Fin n) : Shape.Idx.ofFin p = ix1 p :=
  funext fun b => match b with | ⟨0, _⟩ => rfl

/-- The word `g`, for `g` below 128, reads `g` as a signed integer. -/
theorem toInt_word : ∀ g : Fin 128, (BitVec.ofNat 32 g.val).toInt = (g.val : ℤ) := by decide

/-- A 32-bit word is the word `g`, `g` below 128, exactly when it reads `g` as a signed integer. -/
theorem word_eq_iff (x : BitVec 32) (g : Fin 128) : x = BitVec.ofNat 32 g.val ↔ x.toInt = (g.val : ℤ) :=
  ⟨fun e => e ▸ toInt_word g, fun e => BitVec.eq_of_toInt_eq (e.trans (toInt_word g).symm)⟩

/-- The 0/1 weight at node `n` and graph `g`: one when the node's id reads `g`, zero otherwise. -/
theorem hot_apply (gid : (⟨S100000, .i32⟩ : BufTy).Contents (Elt Ideal)) (n : Fin 100000) (g : Fin 128) :
    hot gid (ix2 n g) = if (gid (ix1 n)).toInt = (g.val : ℤ) then 1 else 0 := by
  have hA : broadcastInDim S100000x128 ![0, 1] bcast_S100000x1_S100000x128_0_1
      (broadcastInDim S100000x1 ![0] bcast_S100000_S100000x1_0 gid) (ix2 n g) = gid (ix1 n) := by
    rw [ix2_eq_ij, ← ofFin_eq_ix1]; exact bcast_rows _ _ gid n g
  have hB : broadcastInDim S100000x128 ![0, 1] bcast_S1x128_S100000x128_0_1
      (broadcastInDim S1x128 ![1] bcast_S128_S1x128_1 (iotaInDim S128 32 0)) (ix2 n g) = BitVec.ofNat 32 g.val := by
    rw [ix2_eq_ij]; exact (bcast_cols _ _ _ n g).trans (iota_apply g)
  unfold hot
  show (((IntOp.cmpi .eq _ _).toNat : ℝ) : EReal) = _
  rw [hA, hB]
  by_cases h : (gid (ix1 n)).toInt = (g.val : ℤ)
  · rw [if_pos h, (word_eq_iff _ g).mpr h]
    simp [IntOp.cmpi]
  · rw [if_neg h]
    have hne : ¬ gid (ix1 n) = BitVec.ofNat 32 g.val := fun e => h ((word_eq_iff _ g).mp e)
    simp [IntOp.cmpi, hne]

/-- A bias vector viewed as a row reads, at column `d`, the vector at `d`. -/
theorem bias_row (b : (⟨S32, .f32⟩ : BufTy).Contents (Elt Ideal)) :
    (fun d : Fin 32 => shapeCast S1x32 b shapeCasts_S32_S1x32 (ix2 (0 : Fin 1) d)) = fun d => b (ix1 d) :=
  funext fun d => shapeCast_a_1a_apply b shapeCasts_S32_S1x32 0 d

variable (m : (ℓ : Loc nD τ sig) → Buf (Elt Ideal) ℓ) (ρ : Dev nD → PrngReg)

/-- The result array after the run is the network of the specification over the kernel's aggregation, given what each
    region leaves in its output array as a function of the arrays it finds. -/
theorem kernel_value
    (h0 : ∀ (V : (c : Dev nD) → (b : Ref sig .tc) → Buf (Elt Ideal) ((c : Thread nD τ).loc b)) (c : Dev nD),
      (dat0 (F := Ideal) V c).arrAt 4 cfg0.N
        = linRelu (V c main_arg0) (V c main_v13) (V c main_arg4) (fun d => V c main_v0 (ix2 (0 : Fin 1) d)))
    (h1 : ∀ (V : (c : Dev nD) → (b : Ref sig .tc) → Buf (Elt Ideal) ((c : Thread nD τ).loc b)) (c : Dev nD),
      (dat1 (F := Ideal) V c).arrAt 5 cfg1.N
        = fun i => z + poolBy (V c main_v33) (lin (V c main_v14) (V c main_v26) (V c main_arg6) (fun d => V c main_v1 (ix2 (0 : Fin 1) d))) i)
    (c : Dev nD) :
    W4 m ρ c (Proc.devRef .tc main_v34)
      = out (aggK (m ((c : Thread nD τ).loc main_arg1)) (m ((c : Thread nD τ).loc main_arg2)))
          (m ((c : Thread nD τ).loc main_arg0)) (m ((c : Thread nD τ).loc main_arg3))
          (m ((c : Thread nD τ).loc main_arg4)) (fun d => m ((c : Thread nD τ).loc main_arg5) (ix1 d))
          (m ((c : Thread nD τ).loc main_arg6)) (fun d => m ((c : Thread nD τ).loc main_arg7) (ix1 d)) := by
  rw [show W4 m ρ c (Proc.devRef .tc main_v34) = (dat1 (V3 m ρ) c).arrAt 5 cfg1.N from W4_arr m ρ c 5]
  rw [h1 (V3 m ρ) c, V3_v33, V3_v14, V3_v26, V3_arg6, V3_v1, W2_v14, h0 (V1 m ρ) c, V1_arg0, V1_v13, V1_arg4, V1_v0,
    bias_row, bias_row, poolBy_eq_segSum _ _ _ (hot_apply _)]
  rfl

end Cert.KernelIdeal.Bridge

end
-- ==== Proof.LibSegmentSum.lean ====
/-
  A scatter-add of the rows of an `[n, d]` table into a `[g, d]` table by one signed integer id per row, at the
  extended reals, read at one element: the operand's element plus the sum, over the rows whose id is that element's
  row, of the update's element in the same column. A row whose id is negative or at least `g` lands nowhere.
-/
import Idealize.ShloMosaic.PureOps.Ideal
import Idealize.ShloMosaic.Lib.ValueIdx

noncomputable section

open scoped BigOperators

namespace Idealize.ShloMosaic.SegmentSum

open Idealize.ShloMosaic Idealize.ShloMosaic.ValueIdx

variable {n g d w : ℕ}

/-! ## Where one update element lands

The dimension numbers of a row sum by id: the update's axis 1 is its window, the operand's axis 0 is inserted and is
the axis the ids address, the ids `[n, 1]` keep their vector on axis 1. Update element `(r, c)` starts at the id of
row `r` on axis 0 and at `0` on axis 1, and its window coordinate is `0` on axis 0 and `c` on axis 1. -/

/-- On the addressed axis the start is row `r`'s id, read signed. -/
theorem start_row (wf) (idx : IVec ⟨2, ![n, 1]⟩ w) (r : Fin n) (c : Fin d) :
    (ScatterDims.mk (s := ⟨2, ![g, d]⟩) (si := ⟨2, ![n, 1]⟩) (u := ⟨2, ![n, d]⟩) [1] [0] [0] 1 wf).start (ix2 r c) idx 0
      = (idx (ix2 r (0 : Fin 1))).toInt := by
  unfold ScatterDims.start
  rw [dif_pos (show (0 : Fin 2) ∈ ([0] : List (Fin 2)) from List.mem_singleton.mpr rfl)]
  congr 2
  funext b
  match b with
  | ⟨0, _⟩ => rfl
  | ⟨1, _⟩ => rfl

/-- On the column axis the start is zero: no id addresses it. -/
theorem start_col (wf) (idx : IVec ⟨2, ![n, 1]⟩ w) (r : Fin n) (c : Fin d) :
    (ScatterDims.mk (s := ⟨2, ![g, d]⟩) (si := ⟨2, ![n, 1]⟩) (u := ⟨2, ![n, d]⟩) [1] [0] [0] 1 wf).start (ix2 r c) idx 1 = 0 := by
  unfold ScatterDims.start
  rw [dif_neg (show (1 : Fin 2) ∉ ([0] : List (Fin 2)) from by decide)]

/-- The inserted axis has no window coordinate. -/
theorem window_row (wf) (r : Fin n) (c : Fin d) :
    (ScatterDims.mk (s := ⟨2, ![g, d]⟩) (si := ⟨2, ![n, 1]⟩) (u := ⟨2, ![n, d]⟩) [1] [0] [0] 1 wf).window (ix2 r c) 0 = 0 := by
  unfold ScatterDims.window
  exact dif_neg (show (0 : Fin 2) ∉ (List.finRange 2).filter (fun a : Fin 2 => a ∉ ([0] : List (Fin 2))) from by decide)

/-- The column axis carries the update's column. -/
theorem window_col (wf) (r : Fin n) (c : Fin d) :
    (ScatterDims.mk (s := ⟨2, ![g, d]⟩) (si := ⟨2, ![n, 1]⟩) (u := ⟨2, ![n, d]⟩) [1] [0] [0] 1 wf).window (ix2 r c) 1 = c.val := by
  unfold ScatterDims.window
  exact (dif_pos (show (1 : Fin 2) ∈ (List.finRange 2).filter (fun a : Fin 2 => a ∉ ([0] : List (Fin 2))) from by decide)).trans rfl

/-- Update element `(r, c)` lands on `(a, b)` exactly when row `r`'s id reads `a` and `c` is `b`; an id outside
    `0 … g - 1` lands on no element. -/
theorem resultIdx?_rows (wf) (idx : IVec ⟨2, ![n, 1]⟩ w) (r : Fin n) (c : Fin d) (a : Fin g) (b : Fin d) :
    (ScatterDims.mk (s := ⟨2, ![g, d]⟩) (si := ⟨2, ![n, 1]⟩) (u := ⟨2, ![n, d]⟩) [1] [0] [0] 1 wf).resultIdx? (ix2 r c) idx
        = some (ix2 a b)
      ↔ (idx (ix2 r (0 : Fin 1))).toInt = (a.val : ℤ) ∧ c = b := by
  have hS0 := start_row (g := g) wf idx r c
  have hS1 := start_col (g := g) wf idx r c
  have hW0 := window_row (g := g) (n := n) wf r c
  have hW1 := window_col (g := g) (n := n) wf r c
  unfold ScatterDims.resultIdx?
  split
  · rename_i h
    rw [Option.some.injEq]
    constructor
    · intro e
      have h0 := (h 0).1
      have e0 : ((ScatterDims.mk (s := ⟨2, ![g, d]⟩) (si := ⟨2, ![n, 1]⟩) (u := ⟨2, ![n, d]⟩) [1] [0] [0] 1 wf).start (ix2 r c) idx 0
          + (ScatterDims.mk (s := ⟨2, ![g, d]⟩) (si := ⟨2, ![n, 1]⟩) (u := ⟨2, ![n, d]⟩) [1] [0] [0] 1 wf).window (ix2 r c) 0).toNat = a.val :=
        congrArg (fun f => (f 0).val) e
      have e1 : ((ScatterDims.mk (s := ⟨2, ![g, d]⟩) (si := ⟨2, ![n, 1]⟩) (u := ⟨2, ![n, d]⟩) [1] [0] [0] 1 wf).start (ix2 r c) idx 1
          + (ScatterDims.mk (s := ⟨2, ![g, d]⟩) (si := ⟨2, ![n, 1]⟩) (u := ⟨2, ![n, d]⟩) [1] [0] [0] 1 wf).window (ix2 r c) 1).toNat = b.val :=
        congrArg (fun f => (f 1).val) e
      rw [hS0, hW0] at h0 e0
      rw [hS1, hW1] at e1
      exact ⟨by omega, Fin.ext (by omega)⟩
    · rintro ⟨e0, rfl⟩
      funext a'
      refine Fin.ext ?_
      match a' with
      | ⟨0, _⟩ =>
        show ((ScatterDims.mk (s := ⟨2, ![g, d]⟩) (si := ⟨2, ![n, 1]⟩) (u := ⟨2, ![n, d]⟩) [1] [0] [0] 1 wf).start (ix2 r c) idx 0
          + (ScatterDims.mk (s := ⟨2, ![g, d]⟩) (si := ⟨2, ![n, 1]⟩) (u := ⟨2, ![n, d]⟩) [1] [0] [0] 1 wf).window (ix2 r c) 0).toNat = a.val
        rw [hS0, hW0]; omega
      | ⟨1, _⟩ =>
        show ((ScatterDims.mk (s := ⟨2, ![g, d]⟩) (si := ⟨2, ![n, 1]⟩) (u := ⟨2, ![n, d]⟩) [1] [0] [0] 1 wf).start (ix2 r c) idx 1
          + (ScatterDims.mk (s := ⟨2, ![g, d]⟩) (si := ⟨2, ![n, 1]⟩) (u := ⟨2, ![n, d]⟩) [1] [0] [0] 1 wf).window (ix2 r c) 1).toNat = c.val
        rw [hS1, hW1]; omega
  · rename_i h
    constructor
    · intro e; exact absurd e (by simp)
    · rintro ⟨e0, rfl⟩
      exfalso
      apply h
      intro a'
      match a' with
      | ⟨0, _⟩ =>
        show 0 ≤ (ScatterDims.mk (s := ⟨2, ![g, d]⟩) (si := ⟨2, ![n, 1]⟩) (u := ⟨2, ![n, d]⟩) [1] [0] [0] 1 wf).start (ix2 r c) idx 0
            + (ScatterDims.mk (s := ⟨2, ![g, d]⟩) (si := ⟨2, ![n, 1]⟩) (u := ⟨2, ![n, d]⟩) [1] [0] [0] 1 wf).window (ix2 r c) 0
          ∧ (ScatterDims.mk (s := ⟨2, ![g, d]⟩) (si := ⟨2, ![n, 1]⟩) (u := ⟨2, ![n, d]⟩) [1] [0] [0] 1 wf).start (ix2 r c) idx 0
            + (ScatterDims.mk (s := ⟨2, ![g, d]⟩) (si := ⟨2, ![n, 1]⟩) (u := ⟨2, ![n, d]⟩) [1] [0] [0] 1 wf).window (ix2 r c) 0 < (g : ℤ)
        rw [hS0, hW0]; have := a.isLt; omega
      | ⟨1, _⟩ =>
        show 0 ≤ (ScatterDims.mk (s := ⟨2, ![g, d]⟩) (si := ⟨2, ![n, 1]⟩) (u := ⟨2, ![n, d]⟩) [1] [0] [0] 1 wf).start (ix2 r c) idx 1
            + (ScatterDims.mk (s := ⟨2, ![g, d]⟩) (si := ⟨2, ![n, 1]⟩) (u := ⟨2, ![n, d]⟩) [1] [0] [0] 1 wf).window (ix2 r c) 1
          ∧ (ScatterDims.mk (s := ⟨2, ![g, d]⟩) (si := ⟨2, ![n, 1]⟩) (u := ⟨2, ![n, d]⟩) [1] [0] [0] 1 wf).start (ix2 r c) idx 1
            + (ScatterDims.mk (s := ⟨2, ![g, d]⟩) (si := ⟨2, ![n, 1]⟩) (u := ⟨2, ![n, d]⟩) [1] [0] [0] 1 wf).window (ix2 r c) 1 < (d : ℤ)
        rw [hS1, hW1]; have := c.isLt; omega

/-! ## The sum read at an element -/

/-- The scatter that sums rows by id, at element `(a, b)`: the operand there plus the sum of column `b` of the update
    over the rows whose id reads `a`. Each row contributes through at most one of its elements, the one in column
    `b`, so the sum over the update's elements that land on `(a, b)` is a sum over rows. -/
theorem scatterAdd_rows_apply (D : ScatterDims ⟨2, ![g, d]⟩ ⟨2, ![n, 1]⟩ ⟨2, ![n, d]⟩)
    (hu : D.updateWindowDims = [1]) (hi : D.insertedWindowDims = [0]) (hs : D.scatterDimsToOperandDims = [0])
    (hv : D.indexVectorDim = 1)
    (x : (⟨2, ![g, d]⟩ : Shape).Idx → EReal) (idx : IVec ⟨2, ![n, 1]⟩ w) (upd : (⟨2, ![n, d]⟩ : Shape).Idx → EReal)
    (a : Fin g) (b : Fin d) :
    Ideal.hostScatterAdd D x idx upd (ix2 a b)
      = x (ix2 a b) + ∑ r : Fin n, if (idx (ix2 r (0 : Fin 1))).toInt = (a.val : ℤ) then upd (ix2 r b) else 0 := by
  obtain ⟨uw, iw, sd, iv, wf⟩ := D
  dsimp only at hu hi hs hv
  subst hu hi hs hv
  unfold Ideal.hostScatterAdd
  congr 1
  rw [Finset.sum_filter, sum_idx2]
  refine Finset.sum_congr rfl fun r _ => ?_
  by_cases hr : (idx (ix2 r (0 : Fin 1))).toInt = (a.val : ℤ)
  · rw [if_pos hr, Finset.sum_eq_single b]
    · rw [if_pos ((resultIdx?_rows wf idx r b a b).mpr ⟨hr, rfl⟩)]
    · intro c _ hc
      rw [if_neg (fun h => hc ((resultIdx?_rows wf idx r c a b).mp h).2)]
    · intro h; exact absurd (Finset.mem_univ b) h
  · rw [if_neg hr]
    refine Finset.sum_eq_zero fun c _ => ?_
    rw [if_neg (fun h => hr ((resultIdx?_rows wf idx r c a b).mp h).1)]

end Idealize.ShloMosaic.SegmentSum

end
-- ==== Proof.RefValue.lean ====
/-
  The reference program's result is the two-layer network of the specification.

  The reference adds to every node's row the sum of its neighbours' rows, multiplies by a weight matrix, adds a bias,
  takes the maximum with zero, does the same once more without the maximum, and finally adds every node's row into
  the row of the graph its id names, starting from the zero word. The neighbour sum is the same map of node tables in
  both layers and is kept as one function `agg`; the last sum by graph id is read element by element.
-/
import proofs.«425825_j64527588655342_3_alg».proof.Proof.Gen.ReferenceIdeal.Read
import proofs.«425825_j64527588655342_3_alg».proof.Proof.Spec
import proofs.«425825_j64527588655342_3_alg».proof.Proof.LibSegmentSum

noncomputable section

open scoped BigOperators

namespace Cert.ReferenceIdeal.RefValue

open Cert.ReferenceIdeal Cert.ReferenceIdeal.Read Idealize.ShloMosaic Idealize.ShloMosaic.ValueIdx GinPool

/-- The neighbour aggregation as the reference computes it: gather the rows the (wrapped) source ids name, add them into the rows the destination ids name. -/
def agg (x1 x2 : (⟨S1600000, .i32⟩ : BufTy).Contents (Elt Ideal)) : (Node.Idx → EReal) → Node.Idx → EReal := fun x => val_main_v9 (F := Ideal) x x1 x2

/-! ### Where the contraction and the bias broadcasts read -/

/-- In the first contraction the left factor of term `k` of entry `(n, d)` is entry `(n, k)`. -/
theorem lidx11 (n : Fin 100000) (d k : Fin 32) : lidx_main_v11 (ix2 n d) k = ix2 n k :=
  funext fun a => Fin.ext (by match a with | ⟨0, _⟩ => rfl | ⟨1, _⟩ => rfl)

/-- In the first contraction the right factor of term `k` of entry `(n, d)` is entry `(k, d)`. -/
theorem ridx11 (n : Fin 100000) (d k : Fin 32) : ridx_main_v11 (ix2 n d) k = ix2 k d :=
  funext fun a => Fin.ext (by match a with | ⟨0, _⟩ => rfl | ⟨1, _⟩ => rfl)

/-- The same for the second contraction. -/
theorem lidx27 (n : Fin 100000) (d k : Fin 32) : lidx_main_v27 (ix2 n d) k = ix2 n k :=
  funext fun a => Fin.ext (by match a with | ⟨0, _⟩ => rfl | ⟨1, _⟩ => rfl)

theorem ridx27 (n : Fin 100000) (d k : Fin 32) : ridx_main_v27 (ix2 n d) k = ix2 k d :=
  funext fun a => Fin.ext (by match a with | ⟨0, _⟩ => rfl | ⟨1, _⟩ => rfl)

/-- The first bias, broadcast to a row and then to every node, reads entry `d` at `(n, d)`. -/
theorem bidx13 (n : Fin 100000) (d : Fin 32) : idx_main_v12 (idx_main_v13 (ix2 n d)) = ix1 d :=
  funext fun a => Fin.ext (by match a with | ⟨0, _⟩ => rfl)

/-- The same for the second bias. -/
theorem bidx29 (n : Fin 100000) (d : Fin 32) : idx_main_v28 (idx_main_v29 (ix2 n d)) = ix1 d :=
  funext fun a => Fin.ext (by match a with | ⟨0, _⟩ => rfl)

/-- The graph ids as a column read the id of node `n` at `(n, 0)`. -/
theorem gidx32 (n : Fin 100000) : idx_main_v32 (ix2 n (0 : Fin 1)) = ix1 n :=
  funext fun a => Fin.ext (by match a with | ⟨0, _⟩ => rfl)

/-! ### The first layer -/

theorem layer1 (x0 : (⟨S100000x32, .f32⟩ : BufTy).Contents (Elt Ideal)) (x1 x2 : (⟨S1600000, .i32⟩ : BufTy).Contents (Elt Ideal))
    (x4 : (⟨S32x32, .f32⟩ : BufTy).Contents (Elt Ideal)) (x5 : (⟨S32, .f32⟩ : BufTy).Contents (Elt Ideal)) :
    val_main_v15 (F := Ideal) x0 x1 x2 x4 x5 = linRelu x0 (agg x1 x2 x0) x4 (fun d => x5 (ix1 d)) := by
  funext i
  obtain ⟨n, d, rfl⟩ : ∃ (n : Fin 100000) (d : Fin 32), i = ix2 n d := ⟨i 0, i 1, eq_ix2 i⟩
  rw [val_main_v15_apply, val_main_v14_apply, val_main_v11_apply, val_main_v13_apply, val_main_v12_apply,
    val_main_call0_v0_apply, val_main_call0_cst_apply, bidx13]
  simp only [val_main_v10_apply, lidx11, ridx11]
  rfl

/-! ### The second aggregation is the first one's map at the first layer's output -/

/-- The zero table the second aggregation starts from is the first one's. -/
theorem zero23 : val_main_v23 (F := Ideal) = val_main_v7 (F := Ideal) := by
  unfold val_main_v23 val_main_v7 val_main_cst_3 val_main_cst
  rfl

/-- The destination ids as a column are the same table in both aggregations. -/
theorem dst24 (x2 : (⟨S1600000, .i32⟩ : BufTy).Contents (Elt Ideal)) : val_main_v24 (F := Ideal) x2 = val_main_v8 (F := Ideal) x2 := by
  unfold val_main_v24 val_main_v8
  rfl

/-- The wrapped source ids (a negative id moved up by the number of nodes) as a column are the same table in both
    aggregations. -/
theorem src21 (x1 : (⟨S1600000, .i32⟩ : BufTy).Contents (Elt Ideal)) : val_main_v21 (F := Ideal) x1 = val_main_v5 (F := Ideal) x1 := by
  unfold val_main_v21 val_main_v5 val_main_v20 val_main_v4 val_main_v19 val_main_v3 val_main_v18 val_main_v2
    val_main_c_2 val_main_c_0 val_main_v17 val_main_v1 val_main_v16 val_main_v0 val_main_c_1 val_main_c
  rfl

theorem agg2 (x0 : (⟨S100000x32, .f32⟩ : BufTy).Contents (Elt Ideal)) (x1 x2 : (⟨S1600000, .i32⟩ : BufTy).Contents (Elt Ideal))
    (x4 : (⟨S32x32, .f32⟩ : BufTy).Contents (Elt Ideal)) (x5 : (⟨S32, .f32⟩ : BufTy).Contents (Elt Ideal)) :
    val_main_v25 (F := Ideal) x0 x1 x2 x4 x5 = agg x1 x2 (val_main_v15 (F := Ideal) x0 x1 x2 x4 x5) := by
  unfold val_main_v25 val_main_v22
  generalize val_main_v15 (F := Ideal) x0 x1 x2 x4 x5 = h
  show _ = val_main_v9 (F := Ideal) h x1 x2
  unfold val_main_v9 val_main_v6
  rw [zero23, dst24, src21]

/-! ### The second layer -/

theorem layer2 (x0 : (⟨S100000x32, .f32⟩ : BufTy).Contents (Elt Ideal)) (x1 x2 : (⟨S1600000, .i32⟩ : BufTy).Contents (Elt Ideal))
    (x4 : (⟨S32x32, .f32⟩ : BufTy).Contents (Elt Ideal)) (x5 : (⟨S32, .f32⟩ : BufTy).Contents (Elt Ideal))
    (x6 : (⟨S32x32, .f32⟩ : BufTy).Contents (Elt Ideal)) (x7 : (⟨S32, .f32⟩ : BufTy).Contents (Elt Ideal)) :
    val_main_v30 (F := Ideal) x0 x1 x2 x4 x5 x6 x7
      = lin (val_main_v15 (F := Ideal) x0 x1 x2 x4 x5) (agg x1 x2 (val_main_v15 (F := Ideal) x0 x1 x2 x4 x5)) x6
          (fun d => x7 (ix1 d)) := by
  funext i
  obtain ⟨n, d, rfl⟩ : ∃ (n : Fin 100000) (d : Fin 32), i = ix2 n d := ⟨i 0, i 1, eq_ix2 i⟩
  rw [val_main_v30_apply, val_main_v27_apply, val_main_v29_apply, val_main_v28_apply, bidx29]
  simp only [val_main_v26_apply, lidx27, ridx27, agg2]
  rfl

/-! ### The result -/

theorem ref_eq (x0 : (⟨S100000x32, .f32⟩ : BufTy).Contents (Elt Ideal)) (x1 x2 : (⟨S1600000, .i32⟩ : BufTy).Contents (Elt Ideal)) (x3 : (⟨S100000, .i32⟩ : BufTy).Contents (Elt Ideal)) (x4 : (⟨S32x32, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) :
    val_main_v33 (F := Ideal) x0 x1 x2 x3 x4 x5 x6 x7
      = out (agg x1 x2) x0 x3 x4 (fun d => x5 (ix1 d)) x6 (fun d => x7 (ix1 d)) := by
  funext i
  obtain ⟨g, d, rfl⟩ : ∃ (g : Fin 128) (d : Fin 32), i = ix2 g d := ⟨i 0, i 1, eq_ix2 i⟩
  unfold val_main_v33 out
  rw [layer2, layer1]
  generalize lin (linRelu x0 (agg x1 x2 x0) x4 fun d => x5 (ix1 d))
    (agg x1 x2 (linRelu x0 (agg x1 x2 x0) x4 fun d => x5 (ix1 d))) x6 (fun d => x7 (ix1 d)) = y
  refine (SegmentSum.scatterAdd_rows_apply (n := 100000) (g := 128) (d := 32)
    scatter_S128x32_S100000x1_S100000x32_1_0_0_1 rfl rfl rfl rfl _ _ _ g d).trans ?_
  rw [val_main_v31_apply, val_main_cst_4_apply]
  simp only [val_main_v32_apply, gidx32]
  rfl

end Cert.ReferenceIdeal.RefValue

end
-- ==== Proof.lean ====
/-
  A two-layer graph network with sum pooling, as a tiled kernel and as plain array code, computes one function over
  the extended reals.

  Each layer maps the node features `x` and the neighbour aggregate `a` to `(x + a) · W + b`; the first is followed by
  the maximum with zero, and the second is summed graph by graph. The kernel computes the first layer 10000 rows at a
  time, and accumulates the second layer's rows into the 128 graphs over ten steps, each step adding the product of a
  0/1 matrix (node by graph) with that step's rows onto what the steps before left, the first step starting from the
  zero word. The array code scatters each row of the second layer into the row of the result its graph id names.
  Three facts join the two. The aggregate is computed by the same gather and scatter-add on both sides; the kernel's
  only extra steps there narrow the gathered table to 16 bits and widen it back, which over the extended reals changes
  nothing. A sum over the 100000 nodes is the sum over ten blocks of 10000. And a 0/1 weight that is one exactly where
  the node's id is the graph turns the weighted sum into the sum over that graph's nodes, because `0 · y = 0` and
  `1 · y = y` for every extended real, so no input needs to be finite and an id outside `0 … 127` is dropped by both.
  The frames of the two kernel programs are the generated ones; the array code's frame is its run with the result
  forgotten; the idealized kernel is the kernel's own text, so nothing is owed for the idealization.
-/
import proofs.«425825_j64527588655342_3_alg».proof.Defs
import proofs.«425825_j64527588655342_3_alg».proof.Proof.Gen.Kernel
import proofs.«425825_j64527588655342_3_alg».proof.Proof.Gen.Kernel.Skeleton
import proofs.«425825_j64527588655342_3_alg».proof.Proof.Gen.Kernel.Launch
import proofs.«425825_j64527588655342_3_alg».proof.Proof.Gen.Kernel.Points
import proofs.«425825_j64527588655342_3_alg».proof.Proof.Gen.Kernel.Frame
import proofs.«425825_j64527588655342_3_alg».proof.Proof.Gen.KernelIdeal
import proofs.«425825_j64527588655342_3_alg».proof.Proof.Gen.KernelIdeal.Skeleton
import proofs.«425825_j64527588655342_3_alg».proof.Proof.Gen.KernelIdeal.Launch
import proofs.«425825_j64527588655342_3_alg».proof.Proof.Gen.KernelIdeal.Points
import proofs.«425825_j64527588655342_3_alg».proof.Proof.Gen.KernelIdeal.Frame
import proofs.«425825_j64527588655342_3_alg».proof.Proof.Gen.ReferenceIdeal
import proofs.«425825_j64527588655342_3_alg».proof.Proof.Gen.ReferenceIdeal.Run
import proofs.«425825_j64527588655342_3_alg».proof.Proof.Gen.ReferenceIdeal.Read
import proofs.«425825_j64527588655342_3_alg».proof.Proof.Gen.Pre_finite_inputs
import proofs.«425825_j64527588655342_3_alg».proof.Proof.KernelRun
import proofs.«425825_j64527588655342_3_alg».proof.Proof.Region0
import proofs.«425825_j64527588655342_3_alg».proof.Proof.Region1
import proofs.«425825_j64527588655342_3_alg».proof.Proof.Bridge
import proofs.«425825_j64527588655342_3_alg».proof.Proof.RefValue
import Idealize.ShloMosaic.Adequacy
import Idealize.ShloMosaic.Init

noncomputable section

namespace Cert.Proof

open Idealize.ShloMosaic Idealize.ShloMosaic.ValueIdx Idealize.SL.Sem GinPool

/-- The aggregation the kernel's host code computes is the array code's: the same gather and scatter-add, the two
    changes of format between them the identity over the extended reals. -/
theorem agg_eq (src dst : (⟨Cert.KernelIdeal.S1600000, .i32⟩ : BufTy).Contents (Elt Ideal)) :
    Cert.ReferenceIdeal.RefValue.agg src dst = Cert.KernelIdeal.HostStages.aggK src dst :=
  funext fun _ => rfl

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2)
    (Cert.ReferenceIdeal.Value.run (F := Ideal) m ρ)

/-- From memories that agree on the eight arguments both programs end with the result array at the network of the
    specification over one and the same aggregation. -/
theorem algebraic : Cert.algebraic_KernelIdeal_ReferenceIdeal := by
  intro m ρ m' ρ' _ hagree
  refine ⟨fun c => out
      (Cert.KernelIdeal.HostStages.aggK (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (fun d => m ((c.tc : Thread Cert.KernelIdeal.nD Cert.KernelIdeal.τ).loc Cert.KernelIdeal.main_arg5) (ix1 d))
      (m ((c.tc : Thread Cert.KernelIdeal.nD Cert.KernelIdeal.τ).loc Cert.KernelIdeal.main_arg6))
      (fun d => m ((c.tc : Thread Cert.KernelIdeal.nD Cert.KernelIdeal.τ).loc Cert.KernelIdeal.main_arg7) (ix1 d)), ?_, ?_⟩
  · exact (θ_run Cert.KernelIdeal.defs _ _).mono
      (fun _ h c => ⟨(h c).1.trans (Cert.KernelIdeal.Bridge.kernel_value m ρ
        Cert.KernelIdeal.Region0.arr4 Cert.KernelIdeal.Region1.arr5 c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v33_eq, Cert.ReferenceIdeal.RefValue.ref_eq, e0, e1, e2, e3, e4, e5, e6, e7, agg_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
